-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x1600000 : Shape := ⟨2, ![2, 1600000]⟩
abbrev S1600000x32 : Shape := ⟨2, ![1600000, 32]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x32 : Shape := ⟨2, ![64, 32]⟩
abbrev S32 : Shape := ⟨1, ![32]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S64 .f32) (main_arg9 : FVec F S64x32 .f32) (main_arg10 : FVec F S32 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg9
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  main_v48

def fn_part1 {F : FTy → Type} [FloatOps F] (main_arg5 : FVec F S64x128 .f32) (main_arg6 : FVec F S128 .f32) (main_arg7 : FVec F S128x64 .f32) (main_arg8 : FVec F S64 .f32) (main_arg9 : FVec F S64x32 .f32) (main_arg10 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x32 .f32) (main_arg1 : IVec S2x1600000 32) (main_arg2 : FVec F S1600000x32 .f32) (main_arg3 : FVec F S64x64 .f32) (main_arg4 : FVec F S64 .f32) (main_arg5 : FVec F S64x128 .f32) (main_arg6 : FVec F S128 .f32) (main_arg7 : FVec F S128x64 .f32) (main_arg8 : FVec F S64 .f32) (main_arg9 : FVec F S64x32 .f32) (main_arg10 : FVec F S32 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x32 : Shape := ⟨2, ![50000, 32]⟩
abbrev S2x1600000 : Shape := ⟨2, ![2, 1600000]⟩
abbrev S1600000x32 : Shape := ⟨2, ![1600000, 32]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x64 : Shape := ⟨2, ![1, 64]⟩
abbrev S1x128 : Shape := ⟨2, ![1, 128]⟩
abbrev S1x32 : Shape := ⟨2, ![1, 32]⟩
abbrev S8000x32 : Shape := ⟨2, ![8000, 32]⟩
abbrev S8000x64 : Shape := ⟨2, ![8000, 64]⟩
abbrev S8000x128 : Shape := ⟨2, ![8000, 128]⟩
abbrev S50000 : Shape := ⟨1, ![50000]⟩
abbrev S50000x1 : Shape := ⟨2, ![50000, 1]⟩

abbrev nBuf : Space → Nat
  | .hbm => 47
  | .vmem => 14
  | .smem => 0
  | _ => 0

abbrev bufTy : (tb : Table) → Fin (tcTables nBuf tb) → BufTy
  | .hbm, ⟨0, _⟩ => ⟨S50000x32, .f32⟩
  | .hbm, ⟨1, _⟩ => ⟨S2x1600000, .i32⟩
  | .hbm, ⟨2, _⟩ => ⟨S1600000x32, .f32⟩
  | .hbm, ⟨3, _⟩ => ⟨S64x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x32, .f32⟩
  | .hbm, ⟨22, _⟩ => ⟨S64x64, .bf16⟩
  | .hbm, ⟨23, _⟩ => ⟨S64x128, .bf16⟩
  | .hbm, ⟨24, _⟩ => ⟨S128x64, .bf16⟩
  | .hbm, ⟨25, _⟩ => ⟨S64x32, .bf16⟩
  | .hbm, ⟨26, _⟩ => ⟨S1x64, .f32⟩
  | .hbm, ⟨27, _⟩ => ⟨S1x128, .f32⟩
  | .hbm, ⟨28, _⟩ => ⟨S1x64, .f32⟩
  | .hbm, ⟨29, _⟩ => ⟨S1x32, .f32⟩
  | .hbm, ⟨30, _⟩ => ⟨S1600000x32, .f32⟩
  | .hbm, ⟨31, _⟩ => ⟨S_, .f32⟩
  | .hbm, ⟨32, _⟩ => ⟨S50000x32, .f32⟩
  | .hbm, ⟨33, _⟩ => ⟨S1600000x1, .i32⟩
  | .hbm, ⟨34, _⟩ => ⟨S50000x32, .f32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S50000, .f32⟩
  | .hbm, ⟨39, _⟩ => ⟨S1600000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000x1, .f32⟩
  | .hbm, ⟨45, _⟩ => ⟨S50000x32, .f32⟩
  | .hbm, ⟨46, _⟩ => ⟨S50000x32, .f32⟩
  | .local _ .vmem, ⟨0, _⟩ => ⟨S8000x32, .f32⟩
  | .local _ .vmem, ⟨1, _⟩ => ⟨S8000x32, .f32⟩
  | .local _ .vmem, ⟨2, _⟩ => ⟨S8000x32, .f32⟩
  | .local _ .vmem, ⟨3, _⟩ => ⟨S8000x32, .f32⟩
  | .local _ .vmem, ⟨4, _⟩ => ⟨S64x64, .bf16⟩
  | .local _ .vmem, ⟨5, _⟩ => ⟨S1x64, .f32⟩
  | .local _ .vmem, ⟨6, _⟩ => ⟨S64x128, .bf16⟩
  | .local _ .vmem, ⟨7, _⟩ => ⟨S1x128, .f32⟩
  | .local _ .vmem, ⟨8, _⟩ => ⟨S128x64, .bf16⟩
  | .local _ .vmem, ⟨9, _⟩ => ⟨S1x64, .f32⟩
  | .local _ .vmem, ⟨10, _⟩ => ⟨S64x32, .bf16⟩
  | .local _ .vmem, ⟨11, _⟩ => ⟨S1x32, .f32⟩
  | .local _ .vmem, ⟨12, _⟩ => ⟨S8000x32, .f32⟩
  | .local _ .vmem, ⟨13, _⟩ => ⟨S8000x32, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x32 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8000x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bitsLt_bf16_f32 : FTy.bits .bf16 < FTy.bits .f32
  shapeCasts_S64_S1x64 : S64.ShapeCasts S1x64
  shapeCasts_S128_S1x128 : S128.ShapeCasts S1x128
  shapeCasts_S32_S1x32 : S32.ShapeCasts S1x32
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  concatenates_S8000x32_S8000x32_S8000x64_d1 : Shape.Concatenates [S8000x32, S8000x32] S8000x64 1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  bcast_S_S50000x32 : S_.BroadcastsInDim S50000x32 (![] : Fin 0 → Fin S50000x32.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  gather_S50000x32_S1600000x1_S1600000x32_1_0_n_n_0_1_132_wf : GatherDims.WF S50000x32 S1600000x1 S1600000x32 [1] [0] [] [0] [] 1 ![1, 32]
  dot_S8000x64_S64x64_S8000x64_1_0_0_1_n_n_wf : DotDims.WF S8000x64 S64x64 S8000x64 [1] [0] [0] [1] [] []
  dot_S8000x64_S64x128_S8000x128_1_0_0_1_n_n_wf : DotDims.WF S8000x64 S64x128 S8000x128 [1] [0] [0] [1] [] []
  dot_S8000x128_S128x64_S8000x64_1_0_0_1_n_n_wf : DotDims.WF S8000x128 S128x64 S8000x64 [1] [0] [0] [1] [] []
  dot_S8000x64_S64x32_S8000x32_1_0_0_1_n_n_wf : DotDims.WF S8000x64 S64x32 S8000x32 [1] [0] [0] [1] [] []
  scatter_S50000x32_S1600000x1_S1600000x32_1_0_0_1_wf : ScatterDims.WF S50000x32 S1600000x1 S1600000x32 [1] [0] [0] 1
  scatter_S50000_S1600000x1_S1600000_n_0_0_1_wf : ScatterDims.WF S50000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S1600000x32.size a
  hwx0_0 : ∀ i : grid0.Coords, EltTy.bits .f32 = 32 ∨ (Rect.block (s := S1600000x32) S8000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x32.size a ≤ S1600000x32.size a
  hwx0_1 : ∀ i : grid0.Coords, EltTy.bits .f32 = 32 ∨ (Rect.block (s := S1600000x32) S8000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .bf16 = 32 ∨ (Rect.block (s := S64x128) S64x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .bf16 = 32 ∨ (Rect.block (s := S128x64) S128x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x32.size a ≤ S64x32.size a
  hwx0_8 : ∀ i : grid0.Coords, EltTy.bits .bf16 = 32 ∨ (Rect.block (s := S64x32) S64x32.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8000x32.size a ≤ S1600000x32.size a
  hwx0_10 : ∀ i : grid0.Coords, EltTy.bits .f32 = 32 ∨ (Rect.block (s := S1600000x32) S8000x32.size (cc0_transform_10 i) (hinb0_10 i)).WholeWords (EltTy.packing .f32)

variable [Facts₀]

def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf

abbrev win0_0 : Pipeline.Window sig grid0 :=
  Pipeline.Window.ofSpec (Memref.whole main_v8) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S64x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S8000x32.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x32 : Shape := ⟨2, ![50000, 32]⟩
abbrev S2x1600000 : Shape := ⟨2, ![2, 1600000]⟩
abbrev S1600000x32 : Shape := ⟨2, ![1600000, 32]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S1600000x128 : Shape := ⟨2, ![1600000, 128]⟩
abbrev S1x128 : Shape := ⟨2, ![1, 128]⟩
abbrev S1x32 : Shape := ⟨2, ![1, 32]⟩
abbrev S50000 : Shape := ⟨1, ![50000]⟩
abbrev S50000x1 : Shape := ⟨2, ![50000, 1]⟩

abbrev nBuf : Space → Nat
  | .hbm => 67
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S2x1600000, .i32⟩
  | .hbm, ⟨2, _⟩ => ⟨S1600000x32, .f32⟩
  | .hbm, ⟨3, _⟩ => ⟨S64x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x32, .f32⟩
  | .hbm, ⟨22, _⟩ => ⟨S1600000x64, .f32⟩
  | .hbm, ⟨23, _⟩ => ⟨S1600000x64, .f32⟩
  | .hbm, ⟨24, _⟩ => ⟨S1x64, .f32⟩
  | .hbm, ⟨25, _⟩ => ⟨S1600000x64, .f32⟩
  | .hbm, ⟨26, _⟩ => ⟨S1600000x64, .f32⟩
  | .hbm, ⟨27, _⟩ => ⟨S_, .f32⟩
  | .hbm, ⟨28, _⟩ => ⟨S1600000x64, .f32⟩
  | .hbm, ⟨29, _⟩ => ⟨S1600000x64, .f32⟩
  | .hbm, ⟨30, _⟩ => ⟨S1600000x128, .f32⟩
  | .hbm, ⟨31, _⟩ => ⟨S1x128, .f32⟩
  | .hbm, ⟨32, _⟩ => ⟨S1600000x128, .f32⟩
  | .hbm, ⟨33, _⟩ => ⟨S1600000x128, .f32⟩
  | .hbm, ⟨34, _⟩ => ⟨S_, .f32⟩
  | .hbm, ⟨35, _⟩ => ⟨S1600000x128, .f32⟩
  | .hbm, ⟨36, _⟩ => ⟨S1600000x128, .f32⟩
  | .hbm, ⟨37, _⟩ => ⟨S1600000x64, .f32⟩
  | .hbm, ⟨38, _⟩ => ⟨S1x64, .f32⟩
  | .hbm, ⟨39, _⟩ => ⟨S1600000x64, .f32⟩
  | .hbm, ⟨40, _⟩ => ⟨S1600000x64, .f32⟩
  | .hbm, ⟨41, _⟩ => ⟨S_, .f32⟩
  | .hbm, ⟨42, _⟩ => ⟨S1600000x64, .f32⟩
  | .hbm, ⟨43, _⟩ => ⟨S1600000x64, .f32⟩
  | .hbm, ⟨44, _⟩ => ⟨S1600000x32, .f32⟩
  | .hbm, ⟨45, _⟩ => ⟨S1x32, .f32⟩
  | .hbm, ⟨46, _⟩ => ⟨S1600000x32, .f32⟩
  | .hbm, ⟨47, _⟩ => ⟨S1600000x32, .f32⟩
  | .hbm, ⟨48, _⟩ => ⟨S_, .f32⟩
  | .hbm, ⟨49, _⟩ => ⟨S1600000x32, .f32⟩
  | .hbm, ⟨50, _⟩ => ⟨S1600000x32, .f32⟩
  | .hbm, ⟨51, _⟩ => ⟨S_, .f32⟩
  | .hbm, ⟨52, _⟩ => ⟨S50000x32, .f32⟩
  | .hbm, ⟨53, _⟩ => ⟨S1600000x1, .i32⟩
  | .hbm, ⟨54, _⟩ => ⟨S50000x32, .f32⟩
  | .hbm, ⟨55, _⟩ => ⟨S_, .f32⟩
  | .hbm, ⟨56, _⟩ => ⟨S1600000, .f32⟩
  | .hbm, ⟨57, _⟩ => ⟨S_, .f32⟩
  | .hbm, ⟨58, _⟩ => ⟨S50000, .f32⟩
  | .hbm, ⟨59, _⟩ => ⟨S1600000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000x1, .f32⟩
  | .hbm, ⟨65, _⟩ => ⟨S50000x32, .f32⟩
  | .hbm, ⟨66, _⟩ => ⟨S50000x32, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_cst : Ref sig .tc := ⟨.hbm, 27, rfl⟩
abbrev main_call0_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call1_cst : Ref sig .tc := ⟨.hbm, 34, rfl⟩
abbrev main_call1_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call2_cst : Ref sig .tc := ⟨.hbm, 41, rfl⟩
abbrev main_call2_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call3_cst : Ref sig .tc := ⟨.hbm, 48, rfl⟩
abbrev main_call3_v0 : Ref sig .tc := ⟨.hbm, 49, rfl⟩
abbrev main_v29 : Ref sig .tc := ⟨.hbm, 50, rfl⟩
abbrev main_cst : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_1 : Ref sig .tc := ⟨.hbm, 55, rfl⟩
abbrev main_v33 : Ref sig .tc := ⟨.hbm, 56, rfl⟩
abbrev main_cst_2 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x64_d1 : Shape.Concatenates [S1600000x32, S1600000x32] S1600000x64 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S_S50000x32 : S_.BroadcastsInDim S50000x32 (![] : Fin 0 → Fin S50000x32.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  gather_S50000x32_S1600000x1_S1600000x32_1_0_n_n_0_1_132_wf : GatherDims.WF S50000x32 S1600000x1 S1600000x32 [1] [0] [] [0] [] 1 ![1, 32]
  dot_S1600000x64_S64x64_S1600000x64_1_0_0_1_n_n_wf : DotDims.WF S1600000x64 S64x64 S1600000x64 [1] [0] [0] [1] [] []
  dot_S1600000x64_S64x128_S1600000x128_1_0_0_1_n_n_wf : DotDims.WF S1600000x64 S64x128 S1600000x128 [1] [0] [0] [1] [] []
  dot_S1600000x128_S128x64_S1600000x64_1_0_0_1_n_n_wf : DotDims.WF S1600000x128 S128x64 S1600000x64 [1] [0] [0] [1] [] []
  dot_S1600000x64_S64x32_S1600000x32_1_0_0_1_n_n_wf : DotDims.WF S1600000x64 S64x32 S1600000x32 [1] [0] [0] [1] [] []
  scatter_S50000x32_S1600000x1_S1600000x32_1_0_0_1_wf : ScatterDims.WF S50000x32 S1600000x1 S1600000x32 [1] [0] [0] 1
  scatter_S50000_S1600000x1_S1600000_n_0_0_1_wf : ScatterDims.WF S50000 S1600000x1 S1600000 [] [0] [0] 1

variable [Facts₀]

def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x128_S1600000x128_1_0_0_1_n_n : DotDims S1600000x64 S64x128 S1600000x128 where
  lhsContracting := [1]
  rhsContracting := [0]
  lhsNonContracting := [0]
  rhsNonContracting := [1]
  lhsBatch := []
  rhsBatch := []
  wf := dot_S1600000x64_S64x128_S1600000x128_1_0_0_1_n_n_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x32_S1600000x32_1_0_0_1_n_n : DotDims S1600000x64 S64x32 S1600000x32 where
  lhsContracting := [1]
  rhsContracting := [0]
  lhsNonContracting := [0]
  rhsNonContracting := [1]
  lhsBatch := []
  rhsBatch := []
  wf := dot_S1600000x64_S64x32_S1600000x32_1_0_0_1_n_n_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf

class Facts : Prop extends Facts₀ where

variable [Facts]
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.EdgeMlp.lean ====
/-
  The message of one edge, and of all edges.

  An edge's input row is its gathered node row (32 numbers) followed by its attribute row (32 numbers); four dense
  layers with ReLU — 64 → 64 → 128 → 64 → 32 — turn it into the edge's message row. Over all 1,600,000 edges the
  messages form one array whose row `e` depends on row `e` of the two inputs only, which is why the rows may be
  computed in tiles of any size.
-/
import proofs.«115056_j45526653337868_1_alg».proof.Proof.LibDense
import Idealize.ShloMosaic.Lib.Pipeline.Value

noncomputable section

namespace Cert.EdgeMlp

open Idealize.ShloMosaic Idealize.ShloMosaic.ValueIdx Cert.LibDense

/-- Two rows of 32 numbers laid side by side: entries 0–31 are the first row's, 32–63 the second's. -/
def cat (a b : Fin 32 → EReal) (k : Fin 64) : EReal :=
  if h : k.val < 32 then a ⟨k.val, h⟩ else b ⟨k.val - 32, by have := k.isLt; omega⟩

/-- Two arrays of `M` rows and 32 columns joined along the columns, read at (r, k): the side-by-side row. -/
theorem concat_apply {M : ℕ} (x0 x1 : (⟨2, ![M, 32]⟩ : Shape).Idx → EReal)
    (h : Shape.Concatenates [(⟨2, ![M, 32]⟩ : Shape), (⟨2, ![M, 32]⟩ : Shape)] ⟨2, ![M, 64]⟩ 1) (r : Fin M) (k : Fin 64) :
    concatenate ⟨2, ![M, 64]⟩ 1 [⟨⟨2, ![M, 32]⟩, x0⟩, ⟨⟨2, ![M, 32]⟩, x1⟩] h (ix2 r k)
      = cat (fun k => x0 (ix2 r k)) (fun k => x1 (ix2 r k)) k := by
  unfold cat
  split
  · rename_i hlt
    exact concatenate_pair_apply_left 1 x0 x1 h (ix2 r k) rfl (ix2 r ⟨k.val, hlt⟩) (fun b => by
      match b with
      | ⟨0, _⟩ => rfl
      | ⟨1, _⟩ => rfl)
  · rename_i hge
    have hk := k.isLt
    exact concatenate_pair_apply_right 1 x0 x1 h (ix2 r k) rfl rfl (ix2 r ⟨k.val - 32, by omega⟩) (fun b hb => by
      match b with
      | ⟨0, _⟩ => rfl
      | ⟨1, _⟩ => exact absurd rfl hb) (by show k.val - 32 + 32 = k.val; omega)

/-- The four-layer perceptron on one edge: from the edge's node row `xr` and attribute row `er` to its message row. -/
def rowMlp (xr er : Fin 32 → EReal) (W1 : Fin 64 → Fin 64 → EReal) (b1 : Fin 64 → EReal)
    (W2 : Fin 64 → Fin 128 → EReal) (b2 : Fin 128 → EReal) (W3 : Fin 128 → Fin 64 → EReal) (b3 : Fin 64 → EReal)
    (W4 : Fin 64 → Fin 32 → EReal) (b4 : Fin 32 → EReal) : Fin 32 → EReal :=
  dense (dense (dense (dense (cat xr er) W1 b1) W2 b2) W3 b3) W4 b4

/-- All edges' messages as one array: entry (e, j) is entry `j` of the perceptron on row `e` of the gathered node
    rows `xi` and of the edge attributes `ea`. -/
def messages (xi ea : (⟨2, ![1600000, 32]⟩ : Shape).Idx → EReal) (W1 : Fin 64 → Fin 64 → EReal) (b1 : Fin 64 → EReal)
    (W2 : Fin 64 → Fin 128 → EReal) (b2 : Fin 128 → EReal) (W3 : Fin 128 → Fin 64 → EReal) (b3 : Fin 64 → EReal)
    (W4 : Fin 64 → Fin 32 → EReal) (b4 : Fin 32 → EReal) : (⟨2, ![1600000, 32]⟩ : Shape).Idx → EReal :=
  fun i => rowMlp (fun k => xi (ix2 (i 0 : Fin 1600000) k)) (fun k => ea (ix2 (i 0 : Fin 1600000) k)) W1 b1 W2 b2 W3 b3 W4 b4
    (i 1 : Fin 32)

/-- The array at (e, j), with the coordinates named. -/
theorem messages_apply (xi ea : (⟨2, ![1600000, 32]⟩ : Shape).Idx → EReal) (W1 : Fin 64 → Fin 64 → EReal) (b1 : Fin 64 → EReal)
    (W2 : Fin 64 → Fin 128 → EReal) (b2 : Fin 128 → EReal) (W3 : Fin 128 → Fin 64 → EReal) (b3 : Fin 64 → EReal)
    (W4 : Fin 64 → Fin 32 → EReal) (b4 : Fin 32 → EReal) (e : Fin 1600000) (j : Fin 32) :
    messages xi ea W1 b1 W2 b2 W3 b3 W4 b4 (ix2 e j)
      = rowMlp (fun k => xi (ix2 e k)) (fun k => ea (ix2 e k)) W1 b1 W2 b2 W3 b3 W4 b4 j := rfl

end Cert.EdgeMlp

end
-- ==== Proof.KernelRow.lean ====
/-
  The kernel's tile, row by row.

  On one tile of 8000 edges the kernel body joins the tile's node rows and attribute rows, and applies the four dense
  layers with ReLU; the changes of float format between the layers are the identity on the extended reals, and so are
  the casts of a block to its own shape. Entry (r, j) of what the body stores is therefore entry `j` of the
  perceptron on row `r` of the two input blocks, with the weights and the one-row biases as loaded.
-/
import proofs.«115056_j45526653337868_1_alg».proof.Proof.Gen.KernelIdeal.Skeleton
import proofs.«115056_j45526653337868_1_alg».proof.Proof.EdgeMlp

noncomputable section

namespace Cert.KernelIdeal.RowValue

open Cert.KernelIdeal Cert.KernelIdeal.Gen Idealize.ShloMosaic Idealize.ShloMosaic.ValueIdx Cert.LibDense Cert.EdgeMlp

/-- What the body stores, at row `r` and column `j` of the tile. -/
theorem payload_apply (x0 x1 : FVec Ideal S8000x32 .f32) (w1 : FVec Ideal S64x64 .bf16) (c1 : FVec Ideal S1x64 .f32)
    (w2 : FVec Ideal S64x128 .bf16) (c2 : FVec Ideal S1x128 .f32) (w3 : FVec Ideal S128x64 .bf16) (c3 : FVec Ideal S1x64 .f32)
    (w4 : FVec Ideal S64x32 .bf16) (c4 : FVec Ideal S1x32 .f32) (r : Fin 8000) (j : Fin 32) :
    k0_pay1 (F := Ideal) (k0_pay2 (F := Ideal) x0 x1 w1 c1 w2 c2 w3 c3) w4 c4 (ix2 r j)
      = rowMlp (fun k => x0 (ix2 r k)) (fun k => x1 (ix2 r k))
          (fun k j => w1 (ix2 k j)) (fun j => c1 (ix2 (0 : Fin 1) j))
          (fun k j => w2 (ix2 k j)) (fun j => c2 (ix2 (0 : Fin 1) j))
          (fun k j => w3 (ix2 k j)) (fun j => c3 (ix2 (0 : Fin 1) j))
          (fun k j => w4 (ix2 k j)) (fun j => c4 (ix2 (0 : Fin 1) j)) j := by
  unfold k0_pay1 k0_pay2
  simp only [shapeCast_self]
  unfold rowMlp
  -- layer 4 over layer 3's row
  refine kernel_layer_apply _ rfl none _ _ _ _ r j _ (fun k3 => ?_)
  refine (truncf_apply (φ := FTy.f32) (ψ := FTy.bf16) _ bitsLt_bf16_f32 _).trans ?_
  -- layer 3 over layer 2's row
  refine kernel_layer_apply _ rfl none _ _ _ _ r k3 _ (fun k2 => ?_)
  refine (truncf_apply (φ := FTy.f32) (ψ := FTy.bf16) _ bitsLt_bf16_f32 _).trans ?_
  -- layer 2 over layer 1's row
  refine kernel_layer_apply _ rfl none _ _ _ _ r k2 _ (fun k1 => ?_)
  refine (truncf_apply (φ := FTy.f32) (ψ := FTy.bf16) _ bitsLt_bf16_f32 _).trans ?_
  -- layer 1 over the joined row
  refine kernel_layer_apply _ rfl none _ _ _ _ r k1 _ (fun k0 => ?_)
  refine (truncf_apply (φ := FTy.f32) (ψ := FTy.bf16) _ bitsLt_bf16_f32 _).trans ?_
  refine (concat_apply (shapeCast S8000x32 x0 shapeCasts_S8000x32_S8000x32) x1 _ r k0).trans ?_
  rw [shapeCast_self]

end Cert.KernelIdeal.RowValue

end
-- ==== Proof.KernelArray.lean ====
/-
  The kernel's output array, from its tiles.

  The grid has 200 points; point `t` reads rows 8000·t … 8000·t + 7999 of the gathered node rows and of the edge
  attributes, reads the four weight matrices and the four one-row biases whole, and writes back rows
  8000·t … 8000·t + 7999 of the output. What it writes at (r, j) is the perceptron on row 8000·t + r of the two inputs,
  so its tile is the tile of ONE array of messages; the 200 tiles cover every row, and the output ends holding that array.
-/
import proofs.«115056_j45526653337868_1_alg».proof.Proof.Gen.KernelIdeal.Frame
import proofs.«115056_j45526653337868_1_alg».proof.Proof.KernelRow
import Idealize.ShloMosaic.Lib.Pipeline.Value

set_option maxRecDepth 16384

noncomputable section

namespace Cert.KernelIdeal.ArrayValue

open Cert.KernelIdeal Cert.KernelIdeal.Gen Idealize.ShloMosaic Idealize.ShloMosaic.TcCoe Idealize.SL.Sem
  Idealize.ShloMosaic.ValueIdx Cert.LibDense Cert.EdgeMlp

variable (m : (ℓ : Loc nD τ sig) → Buf (Elt Ideal) ℓ)

theorem offsets_zero : (![0, 0] : Fin 2 → Nat) = fun _ => 0 := funext fun a => by fin_cases a <;> rfl

/-- The printed index maps, decided over the grid: the two row-tiled inputs and the output are at block (t, 0) at point
    `t`; the weights and biases stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0
    ∧ (∀ a : Fin 2, win0_2.index t a = 0) ∧ (∀ a : Fin 2, win0_3.index t a = 0)
    ∧ (∀ a : Fin 2, win0_4.index t a = 0) ∧ (∀ a : Fin 2, win0_5.index t a = 0)
    ∧ (∀ a : Fin 2, win0_6.index t a = 0) ∧ (∀ a : Fin 2, win0_7.index t a = 0)
    ∧ (∀ a : Fin 2, win0_8.index t a = 0) ∧ (∀ a : Fin 2, win0_9.index t a = 0) :=
  (by decide +kernel : ∀ t : Fin grid0.N, _)

/-- Row `r` of the tile at point `t` is row 8000·t + r of the arrays. -/
def rowAt (t : Fin cfg0.N) (r : Fin 8000) : Fin 1600000 :=
  ⟨8000 * t.val + r.val, by
    have ht : t.val < 200 := lt_of_lt_of_eq t.isLt N_0
    have hr := r.isLt
    omega⟩

/-- The messages of all edges, from the arrays as the region finds them: the gathered node rows, the edge attributes,
    the weights (whose change of format is the identity) and the one-row biases. -/
abbrev found (c : Dev nD) : S1600000x32.Idx → EReal :=
  messages (V m c main_v8) (V m c main_arg2)
    (fun k j => V m c main_v9 (ix2 k j)) (fun j => V m c main_v13 (ix2 (0 : Fin 1) j))
    (fun k j => V m c main_v10 (ix2 k j)) (fun j => V m c main_v14 (ix2 (0 : Fin 1) j))
    (fun k j => V m c main_v11 (ix2 k j)) (fun j => V m c main_v15 (ix2 (0 : Fin 1) j))
    (fun k j => V m c main_v12 (ix2 k j)) (fun j => V m c main_v16 (ix2 (0 : Fin 1) j))

/-- The node-row tile at point `t`, read at (r, k). -/
theorem blk0_apply (c : Dev nD) (t : Fin cfg0.N) (r : Fin 8000) (k : Fin 32) :
    iblk m c 0 t (ix2 r k) = V m c main_v8 (ix2 (rowAt t r) k) := by
  obtain ⟨e0, e1, -⟩ := idx_facts t
  unfold iblk
  show V m c main_v8 (((cfg0.win 0).blk t).view.emb (ix2 r k)) = V m c main_v8 (ix2 (rowAt t r) k)
  refine congrArg _ (funext fun a => Fin.ext ?_)
  match a with
  | ⟨0, _⟩ => show win0_0.index t (0 : Fin 2) * 8000 + 1 * r.val = 8000 * t.val + r.val; rw [e0]; omega
  | ⟨1, _⟩ => show win0_0.index t (1 : Fin 2) * 32 + 1 * k.val = k.val; rw [e1]; omega

/-- The attribute tile at point `t`, read at (r, k). -/
theorem blk1_apply (c : Dev nD) (t : Fin cfg0.N) (r : Fin 8000) (k : Fin 32) :
    iblk m c 1 t (ix2 r k) = V m c main_arg2 (ix2 (rowAt t r) k) := by
  obtain ⟨-, -, e0, e1, -⟩ := idx_facts t
  unfold iblk
  show V m c main_arg2 (((cfg0.win 1).blk t).view.emb (ix2 r k)) = V m c main_arg2 (ix2 (rowAt t r) k)
  refine congrArg _ (funext fun a => Fin.ext ?_)
  match a with
  | ⟨0, _⟩ => show win0_1.index t (0 : Fin 2) * 8000 + 1 * r.val = 8000 * t.val + r.val; rw [e0]; omega
  | ⟨1, _⟩ => show win0_1.index t (1 : Fin 2) * 32 + 1 * k.val = k.val; rw [e1]; omega

/-! The weights and biases stay at block (0, 0): at every point each one's block is its whole array. -/

/-- The first layer's weights at point `t`, read at (p, q). -/
theorem blk2_apply (c : Dev nD) (t : Fin cfg0.N) (p : Fin 64) (q : Fin 64) :
    iblk m c 2 t (ix2 p q) = V m c main_v9 (ix2 p q) := by
  have h := (idx_facts t).2.2.2.2.2.2.1
  unfold iblk
  exact congrArg (V m c main_v9) (funext fun a => Fin.ext (win0_2.rect_emb_val_of_index_zero t a (h a) (ix2 p q)))

/-- The first layer's bias row at point `t`. -/
theorem blk3_apply (c : Dev nD) (t : Fin cfg0.N) (p : Fin 1) (q : Fin 64) :
    iblk m c 3 t (ix2 p q) = V m c main_v13 (ix2 p q) := by
  have h := (idx_facts t).2.2.2.2.2.2.2.1
  unfold iblk
  exact congrArg (V m c main_v13) (funext fun a => Fin.ext (win0_3.rect_emb_val_of_index_zero t a (h a) (ix2 p q)))

/-- The second layer's weights at point `t`. -/
theorem blk4_apply (c : Dev nD) (t : Fin cfg0.N) (p : Fin 64) (q : Fin 128) :
    iblk m c 4 t (ix2 p q) = V m c main_v10 (ix2 p q) := by
  have h := (idx_facts t).2.2.2.2.2.2.2.2.1
  unfold iblk
  exact congrArg (V m c main_v10) (funext fun a => Fin.ext (win0_4.rect_emb_val_of_index_zero t a (h a) (ix2 p q)))

/-- The second layer's bias row at point `t`. -/
theorem blk5_apply (c : Dev nD) (t : Fin cfg0.N) (p : Fin 1) (q : Fin 128) :
    iblk m c 5 t (ix2 p q) = V m c main_v14 (ix2 p q) := by
  have h := (idx_facts t).2.2.2.2.2.2.2.2.2.1
  unfold iblk
  exact congrArg (V m c main_v14) (funext fun a => Fin.ext (win0_5.rect_emb_val_of_index_zero t a (h a) (ix2 p q)))

/-- The third layer's weights at point `t`. -/
theorem blk6_apply (c : Dev nD) (t : Fin cfg0.N) (p : Fin 128) (q : Fin 64) :
    iblk m c 6 t (ix2 p q) = V m c main_v11 (ix2 p q) := by
  have h := (idx_facts t).2.2.2.2.2.2.2.2.2.2.1
  unfold iblk
  exact congrArg (V m c main_v11) (funext fun a => Fin.ext (win0_6.rect_emb_val_of_index_zero t a (h a) (ix2 p q)))

/-- The third layer's bias row at point `t`. -/
theorem blk7_apply (c : Dev nD) (t : Fin cfg0.N) (p : Fin 1) (q : Fin 64) :
    iblk m c 7 t (ix2 p q) = V m c main_v15 (ix2 p q) := by
  have h := (idx_facts t).2.2.2.2.2.2.2.2.2.2.2.1
  unfold iblk
  exact congrArg (V m c main_v15) (funext fun a => Fin.ext (win0_7.rect_emb_val_of_index_zero t a (h a) (ix2 p q)))

/-- The fourth layer's weights at point `t`. -/
theorem blk8_apply (c : Dev nD) (t : Fin cfg0.N) (p : Fin 64) (q : Fin 32) :
    iblk m c 8 t (ix2 p q) = V m c main_v12 (ix2 p q) := by
  have h := (idx_facts t).2.2.2.2.2.2.2.2.2.2.2.2.1
  unfold iblk
  exact congrArg (V m c main_v12) (funext fun a => Fin.ext (win0_8.rect_emb_val_of_index_zero t a (h a) (ix2 p q)))

/-- The fourth layer's bias row at point `t`. -/
theorem blk9_apply (c : Dev nD) (t : Fin cfg0.N) (p : Fin 1) (q : Fin 32) :
    iblk m c 9 t (ix2 p q) = V m c main_v16 (ix2 p q) := by
  have h := (idx_facts t).2.2.2.2.2.2.2.2.2.2.2.2.2
  unfold iblk
  exact congrArg (V m c main_v16) (funext fun a => Fin.ext (win0_9.rect_emb_val_of_index_zero t a (h a) (ix2 p q)))

/-- An element of the output tile at point `t` sits at row 8000·t + r of the output. -/
theorem emb10 (t : Fin cfg0.N) (r : Fin 8000) (j : Fin 32) :
    ((cfg0.win 10).blk t).view.emb (ix2 r j) = ix2 (rowAt t r) j := by
  obtain ⟨-, -, -, -, e0, e1, -⟩ := idx_facts t
  refine funext fun a => Fin.ext ?_
  match a with
  | ⟨0, _⟩ => show win0_10.index t (0 : Fin 2) * 8000 + 1 * r.val = 8000 * t.val + r.val; rw [e0]; omega
  | ⟨1, _⟩ => show win0_10.index t (1 : Fin 2) * 32 + 1 * j.val = j.val; rw [e1]; omega

/-- WHAT POINT `t` WRITES BACK is its tile of the messages array. -/
theorem flushed_eq (c : Dev nD) (t : Fin cfg0.N) :
    (dats m 0 c).flushed 10 t = ((cfg0.win 10).blk t).view.read (Elt Ideal) (found m c) := by
  show (cfg0.win 10).cut (grid0.coords t) ((dats m 0 c).after 10 t) = _
  rw [after0_10]
  unfold out0_10
  rw [View.canon_unit_zero offsets_zero]
  simp only [View.ld_unit_zero (S := S8000x32) offsets_zero, View.ld_unit_zero (S := S64x64) offsets_zero,
    View.ld_unit_zero (S := S1x64) offsets_zero, View.ld_unit_zero (S := S64x128) offsets_zero,
    View.ld_unit_zero (S := S1x128) offsets_zero, View.ld_unit_zero (S := S128x64) offsets_zero,
    View.ld_unit_zero (S := S64x32) offsets_zero, View.ld_unit_zero (S := S1x32) offsets_zero]
  funext y
  obtain ⟨r, j, rfl⟩ : ∃ (r : Fin 8000) (j : Fin 32), y = ix2 r j := ⟨y 0, y 1, eq_ix2 y⟩
  show k0_pay1 (F := Ideal) (k0_pay2 (F := Ideal) (iblk m c 0 t) (iblk m c 1 t) (iblk m c 2 t) (iblk m c 3 t) (iblk m c 4 t)
      (iblk m c 5 t) (iblk m c 6 t) (iblk m c 7 t)) (iblk m c 8 t) (iblk m c 9 t) (ix2 r j)
    = found m c (((cfg0.win 10).blk t).view.emb (ix2 r j))
  rw [emb10 t r j]
  refine (RowValue.payload_apply (iblk m c 0 t) (iblk m c 1 t) (iblk m c 2 t) (iblk m c 3 t) (iblk m c 4 t)
    (iblk m c 5 t) (iblk m c 6 t) (iblk m c 7 t) (iblk m c 8 t) (iblk m c 9 t) r j).trans ?_
  unfold found
  rw [messages_apply]
  simp only [blk0_apply m c t, blk1_apply m c t, blk2_apply m c t, blk3_apply m c t, blk4_apply m c t, blk5_apply m c t,
    blk6_apply m c t, blk7_apply m c t, blk8_apply m c t, blk9_apply m c t]

/-- An index of the output is in point `t`'s tile iff each coordinate is in the tile's range on its axis. -/
theorem mem_blk (t : Fin cfg0.N) (i : S1600000x32.Idx) :
    i ∈ ((cfg0.win 10).blk t).view.set ↔ ∀ a : Fin 2, win0_10.index t a * S8000x32.size a ≤ (i a).val
      ∧ (i a).val < win0_10.index t a * S8000x32.size a + S8000x32.size a := by
  show i ∈ ((View.whole main_v17).slice (win0_10.rect t)).set ↔ _
  rw [View.set_slice_whole, Rect.mem_set_unit]
  exact Iff.rfl

/-- Every row of the output is in some point's tile: row `e` in that of point e / 8000. -/
theorem cover (i : S1600000x32.Idx) :
    ∃ t : Fin cfg0.N, (cfg0.win 10).flush t = true ∧ i ∈ ((cfg0.win 10).blk t).view.set := by
  have hi0 : (i 0).val < 1600000 := (i 0).isLt
  have hi1 : (i 1).val < 32 := (i 1).isLt
  have hq : (i 0).val / 8000 < cfg0.N := lt_of_lt_of_eq (by omega : (i 0).val / 8000 < 200) N_0.symm
  refine ⟨⟨(i 0).val / 8000, hq⟩, flush0_10 _, ?_⟩
  obtain ⟨-, -, -, -, e0, e1, -⟩ := idx_facts ⟨(i 0).val / 8000, hq⟩
  rw [mem_blk]
  intro a
  match a with
  | ⟨0, _⟩ =>
    show win0_10.index ⟨(i 0).val / 8000, hq⟩ (0 : Fin 2) * 8000 ≤ (i 0).val
      ∧ (i 0).val < win0_10.index ⟨(i 0).val / 8000, hq⟩ (0 : Fin 2) * 8000 + 8000
    rw [e0]
    show (i 0).val / 8000 * 8000 ≤ (i 0).val ∧ (i 0).val < (i 0).val / 8000 * 8000 + 8000
    omega
  | ⟨1, _⟩ =>
    show win0_10.index ⟨(i 0).val / 8000, hq⟩ (1 : Fin 2) * 32 ≤ (i 1).val
      ∧ (i 1).val < win0_10.index ⟨(i 0).val / 8000, hq⟩ (1 : Fin 2) * 32 + 32
    rw [e1]
    omega

/-- THE OUTPUT ARRAY after the run: the messages of all edges. -/
theorem final (c : Dev nD) : (dats m 0 c).arrAt 10 cfg0.N = found m c :=
  (dats m 0 c).arrAt_eq_of_cover 10 (found m c) (fun t _ => flushed_eq m c t) (cover)

end Cert.KernelIdeal.ArrayValue

end
-- ==== Proof.ReferenceRow.lean ====
/-
  The reference's messages, row by row.

  The reference joins the gathered node rows and the edge attributes over all 1,600,000 edges and applies the four
  dense layers with ReLU to the whole array at once. Entry (e, j) of the last layer's result is entry `j` of the
  perceptron on row `e` of the two inputs: each product's entry depends on one row of its left operand, and each bias
  is a vector laid along every row.
-/
import proofs.«115056_j45526653337868_1_alg».proof.Proof.Gen.ReferenceIdeal.Read
import proofs.«115056_j45526653337868_1_alg».proof.Proof.EdgeMlp

noncomputable section

namespace Cert.ReferenceIdeal.RowValue

open Cert.ReferenceIdeal Cert.ReferenceIdeal.Gen Cert.ReferenceIdeal.Read Idealize.ShloMosaic Idealize.ShloMosaic.ValueIdx
  Cert.LibDense Cert.EdgeMlp

/-- The last layer's result at row `e` and column `j`: the perceptron on row `e` of the gathered node rows (the
    gather's result, whatever it reads) and of the edge attributes. -/
theorem messages_apply (x0 : (⟨S50000x32, .f32⟩ : BufTy).Contents (Elt Ideal)) (x1 : (⟨S2x1600000, .i32⟩ : BufTy).Contents (Elt Ideal))
    (x2 : (⟨S1600000x32, .f32⟩ : BufTy).Contents (Elt Ideal)) (x3 : (⟨S64x64, .f32⟩ : BufTy).Contents (Elt Ideal)) (x4 : (⟨S64, .f32⟩ : BufTy).Contents (Elt Ideal))
    (x5 : (⟨S64x128, .f32⟩ : BufTy).Contents (Elt Ideal)) (x6 : (⟨S128, .f32⟩ : BufTy).Contents (Elt Ideal)) (x7 : (⟨S128x64, .f32⟩ : BufTy).Contents (Elt Ideal))
    (x8 : (⟨S64, .f32⟩ : BufTy).Contents (Elt Ideal)) (x9 : (⟨S64x32, .f32⟩ : BufTy).Contents (Elt Ideal)) (x10 : (⟨S32, .f32⟩ : BufTy).Contents (Elt Ideal))
    (e : Fin 1600000) (j : Fin 32) :
    val_main_v29 (F := Ideal) x0 x1 x2 x3 x4 x5 x6 x7 x8 x9 x10 (ix2 e j)
      = rowMlp (fun k => val_main_v8 (F := Ideal) x0 x1 (ix2 e k)) (fun k => x2 (ix2 e k))
          (fun k j => x3 (ix2 k j)) (fun j => x4 (ix1 j))
          (fun k j => x5 (ix2 k j)) (fun j => x6 (ix1 j))
          (fun k j => x7 (ix2 k j)) (fun j => x8 (ix1 j))
          (fun k j => x9 (ix2 k j)) (fun j => x10 (ix1 j)) j := by
  unfold rowMlp
  -- layer 4 over layer 3's row
  unfold val_main_v29 val_main_v28 val_main_v25 val_main_v27 val_main_v26 val_main_call3_v0 val_main_call3_cst
  refine host_layer_apply _ rfl none _ _ _ _ _ _ e j _ (fun k3 => ?_)
  -- layer 3 over layer 2's row
  unfold val_main_v24 val_main_v23 val_main_v20 val_main_v22 val_main_v21 val_main_call2_v0 val_main_call2_cst
  refine host_layer_apply _ rfl none _ _ _ _ _ _ e k3 _ (fun k2 => ?_)
  -- layer 2 over layer 1's row
  unfold val_main_v19 val_main_v18 val_main_v15 val_main_v17 val_main_v16 val_main_call1_v0 val_main_call1_cst
  refine host_layer_apply _ rfl none _ _ _ _ _ _ e k2 _ (fun k1 => ?_)
  -- layer 1 over the joined row
  unfold val_main_v14 val_main_v13 val_main_v10 val_main_v12 val_main_v11 val_main_call0_v0 val_main_call0_cst
  refine host_layer_apply _ rfl none _ _ _ _ _ _ e k1 _ (fun k0 => ?_)
  unfold val_main_v9
  exact concat_apply _ x2 _ e k0

end Cert.ReferenceIdeal.RowValue

end
-- ==== Proof.Bridge.lean ====
/-
  The two programs around the perceptron.

  Before its kernel the kernel program takes the edges' target nodes (row 1 of the edge list), gathers the target
  nodes' rows, changes the four weight matrices' format (the identity on the extended reals) and views each bias vector
  as one row. After it, both programs turn the messages into each node's mean incoming message: the messages summed by
  target node, divided by the number of incoming edges or by one where there is none. Both programs spell the gather and
  that mean with the same operations on the same operands, so each is carried here as one function, never opened; what
  is proved is that the array the kernel's region leaves is the reference's messages.
-/
import proofs.«115056_j45526653337868_1_alg».proof.Proof.KernelArray
import proofs.«115056_j45526653337868_1_alg».proof.Proof.ReferenceRow
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem
  Idealize.ShloMosaic.StableHlo Idealize.ShloMosaic.ValueIdx Cert.LibDense Cert.EdgeMlp Cert.KernelIdeal.ArrayValue

variable (m : (ℓ : Loc nD τ sig) → Buf (Elt Ideal) ℓ)

/-- Each node's mean incoming message, as both programs compute it from the edges' targets and the messages: the
    messages summed by target, over the larger of the target's count of incoming edges and one. -/
def nodeMean (dst : IVec S1600000 32) (msg : FVec Ideal S1600000x32 .f32) : FVec Ideal S50000x32 .f32 :=
  Host.divf (F := Ideal)
    (Host.scatterAdd (F := Ideal) scatter_S50000x32_S1600000x1_S1600000x32_1_0_0_1
      (broadcastInDim S50000x32 ![] bcast_S_S50000x32 (constant (F := Ideal) S_ .f32 0x00000000#32))
      (broadcastInDim S1600000x1 ![0] bcast_S1600000_S1600000x1_0 dst) msg)
    (broadcastInDim S50000x32 ![0, 1] bcast_S50000x1_S50000x32_0_1
      (broadcastInDim S50000x1 ![0] bcast_S50000_S50000x1_0
        (maximumf
          (Host.scatterAdd (F := Ideal) scatter_S50000_S1600000x1_S1600000_n_0_0_1
            (broadcastInDim S50000 ![] bcast_S_S50000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S50000 ![] bcast_S_S50000 (constant (F := Ideal) S_ .f32 0x3F800000#32)))))

/-- The edges' target nodes: row 1 of the edge list, as a vector. -/
abbrev targets (c : Dev nD) : IVec S1600000 32 :=
  shapeCast _ (extractStridedSlice S1x1600000 ![1, 0] (m ((c.tc : Thread nD τ).loc main_arg1)) slices_S2x1600000_S1x1600000_1_0)
    shapeCasts_S1x1600000_S1600000

/-- The region finds the targets in their buffer. -/
theorem found_targets (c : Dev nD) : (V0 m c (Proc.devRef .tc main_v1) : S1600000.Idx → BitVec 32) = targets m c := by
  show StableHlo.after hostOps0 (fun b => m (c, b)) (Proc.devRef .tc main_v1) = _
  after_results
  rfl

/-- The region finds the gathered node rows: the reference's gather of the same arguments. -/
theorem found_gathered (c : Dev nD) :
    (V m c main_v8 : S1600000x32.Idx → EReal)
      = Cert.ReferenceIdeal.Read.val_main_v8 (F := Ideal) (m ((c.tc : Thread nD τ).loc main_arg0)) (m ((c.tc : Thread nD τ).loc main_arg1)) := by
  show StableHlo.after hostOps0 (fun b => m (c, b)) (Proc.devRef .tc main_v8) = _
  after_results
  rfl

/-! The weights as the region finds them: their change of format is the identity on the extended reals. -/

theorem found_w1 (c : Dev nD) : (V m c main_v9 : S64x64.Idx → EReal) = (m ((c.tc : Thread nD τ).loc main_arg3)) := by
  show StableHlo.after hostOps0 (fun b => m (c, b)) (Proc.devRef .tc main_v9) = _
  after_results
  rfl

theorem found_w2 (c : Dev nD) : (V m c main_v10 : S64x128.Idx → EReal) = (m ((c.tc : Thread nD τ).loc main_arg5)) := by
  show StableHlo.after hostOps0 (fun b => m (c, b)) (Proc.devRef .tc main_v10) = _
  after_results
  rfl

theorem found_w3 (c : Dev nD) : (V m c main_v11 : S128x64.Idx → EReal) = (m ((c.tc : Thread nD τ).loc main_arg7)) := by
  show StableHlo.after hostOps0 (fun b => m (c, b)) (Proc.devRef .tc main_v11) = _
  after_results
  rfl

theorem found_w4 (c : Dev nD) : (V m c main_v12 : S64x32.Idx → EReal) = (m ((c.tc : Thread nD τ).loc main_arg9)) := by
  show StableHlo.after hostOps0 (fun b => m (c, b)) (Proc.devRef .tc main_v12) = _
  after_results
  rfl

/-! The biases as the region finds them: each vector viewed as one row, so the row's entry `j` is the vector's. -/

theorem found_b1 (c : Dev nD) (j : Fin 64) : V m c main_v13 (ix2 (0 : Fin 1) j) = (m ((c.tc : Thread nD τ).loc main_arg4)) (ix1 j) := by
  have e : (V m c main_v13 : S1x64.Idx → EReal) = shapeCast S1x64 (m ((c.tc : Thread nD τ).loc main_arg4)) shapeCasts_S64_S1x64 := by
    show StableHlo.after hostOps0 (fun b => m (c, b)) (Proc.devRef .tc main_v13) = _
    after_results
    rfl
  rw [e]
  exact shapeCast_apply _ _ (ix2 (0 : Fin 1) j) (ix1 j) (by
    rw [Shape.rowMajor_val_two, Shape.rowMajor_val_one]; show j.val = 0 * 64 + j.val; omega)

theorem found_b2 (c : Dev nD) (j : Fin 128) : V m c main_v14 (ix2 (0 : Fin 1) j) = (m ((c.tc : Thread nD τ).loc main_arg6)) (ix1 j) := by
  have e : (V m c main_v14 : S1x128.Idx → EReal) = shapeCast S1x128 (m ((c.tc : Thread nD τ).loc main_arg6)) shapeCasts_S128_S1x128 := by
    show StableHlo.after hostOps0 (fun b => m (c, b)) (Proc.devRef .tc main_v14) = _
    after_results
    rfl
  rw [e]
  exact shapeCast_apply _ _ (ix2 (0 : Fin 1) j) (ix1 j) (by
    rw [Shape.rowMajor_val_two, Shape.rowMajor_val_one]; show j.val = 0 * 128 + j.val; omega)

theorem found_b3 (c : Dev nD) (j : Fin 64) : V m c main_v15 (ix2 (0 : Fin 1) j) = (m ((c.tc : Thread nD τ).loc main_arg8)) (ix1 j) := by
  have e : (V m c main_v15 : S1x64.Idx → EReal) = shapeCast S1x64 (m ((c.tc : Thread nD τ).loc main_arg8)) shapeCasts_S64_S1x64 := by
    show StableHlo.after hostOps0 (fun b => m (c, b)) (Proc.devRef .tc main_v15) = _
    after_results
    rfl
  rw [e]
  exact shapeCast_apply _ _ (ix2 (0 : Fin 1) j) (ix1 j) (by
    rw [Shape.rowMajor_val_two, Shape.rowMajor_val_one]; show j.val = 0 * 64 + j.val; omega)

theorem found_b4 (c : Dev nD) (j : Fin 32) : V m c main_v16 (ix2 (0 : Fin 1) j) = (m ((c.tc : Thread nD τ).loc main_arg10)) (ix1 j) := by
  have e : (V m c main_v16 : S1x32.Idx → EReal) = shapeCast S1x32 (m ((c.tc : Thread nD τ).loc main_arg10)) shapeCasts_S32_S1x32 := by
    show StableHlo.after hostOps0 (fun b => m (c, b)) (Proc.devRef .tc main_v16) = _
    after_results
    rfl
  rw [e]
  exact shapeCast_apply _ _ (ix2 (0 : Fin 1) j) (ix1 j) (by
    rw [Shape.rowMajor_val_two, Shape.rowMajor_val_one]; show j.val = 0 * 32 + j.val; omega)

/-- THE MESSAGES the kernel's region leaves are the reference's: row by row both are the perceptron on the same
    gathered node row and attribute row, with the same weights and biases. -/
theorem found_messages (c : Dev nD) :
    found m c = Cert.ReferenceIdeal.Read.val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  funext i
  obtain ⟨e, j, rfl⟩ : ∃ (e : Fin 1600000) (j : Fin 32), i = ix2 e j := ⟨i 0, i 1, eq_ix2 i⟩
  rw [Cert.ReferenceIdeal.RowValue.messages_apply]
  unfold found
  rw [Cert.EdgeMlp.messages_apply, found_gathered m c, V_main_arg2 m c, found_w1 m c, found_w2 m c, found_w3 m c, found_w4 m c]
  simp only [found_b1 m c, found_b2 m c, found_b3 m c, found_b4 m c]

set_option maxHeartbeats 1000000 in
/-- What the lines after the region leave in the result: the node means of the targets and the region's output. -/
theorem tail_eq (c : Dev nD) :
    Pipeline.afterTail₀ cfgs (dats m) 0 (V0 m) [hostOps1] c main_v29
      = nodeMean (targets m c) ((dats m 0 c).arrAt 10 cfg0.N) := by
  unfold Pipeline.afterTail₀
  show StableHlo.after hostOps1 _ (Proc.devRef .tc main_v29) = _
  after_results_simp
  -- the targets' buffer is no array of the pipeline and keeps what the region found; the output's array is what the region left
  have e1 : Pipeline.withArrays (cfgs 0).spec c (V0 m c) (fun w => (dats m 0 c).arrAt w (cfgs 0).N) (Proc.devRef .tc main_v1)
      = targets m c :=
    (Pipeline.withArrays_of_ne _ c (V0 m c) _ main_v1 (by exact (by decide : ∀ w, Pipeline.arrRef spec0 w ≠ main_v1))).trans
      (found_targets m c)
  have e17 : Pipeline.withArrays (cfgs 0).spec c (V0 m c) (fun w => (dats m 0 c).arrAt w (cfgs 0).N) (Proc.devRef .tc main_v17)
      = (dats m 0 c).arrAt 10 cfg0.N :=
    Pipeline.withArrays_arr spec0 launch0.win.arr_inj c _ _ 10
  rw [e1, e17]
  rfl

end Cert.KernelIdeal.HostValue

end
-- ==== Proof.lean ====
/-
  Mean aggregation of edge messages: a tiled perceptron kernel against the whole-array reference.

  Both programs gather each edge's target node row, pass it with the edge's attribute row through four dense layers
  with ReLU (64 → 64 → 128 → 64 → 32), and average the resulting messages over each node's incoming edges. The kernel
  program runs the four layers in one kernel over tiles of 8000 edges, with the weights and the activations between
  layers in a narrower float format; on the extended reals a change of format is the identity, a product accumulated
  into zero is the product, and each layer's entry is `max (∑ k, h k · W k j + b j) 0` on both sides, with the same
  sums over the same `k` (no regrouping, so nothing is asked of the inputs' finiteness). Row `e` of the messages
  depends on row `e` of the inputs alone, so the 200 tiles are the tiles of the reference's one array (KernelRow,
  ReferenceRow over EdgeMlp; KernelArray). The gather before and the averaging after are the same operations on the same
  operands in both programs and are carried whole (Bridge).

  The frames of the two kernel programs are their generated frame certificates; the reference's is its generated run
  with the result dropped. The idealization rewrote nothing, so `preserves` is `True`.
-/
import proofs.«115056_j45526653337868_1_alg».proof.Defs
import proofs.«115056_j45526653337868_1_alg».proof.Proof.Gen.Kernel
import proofs.«115056_j45526653337868_1_alg».proof.Proof.Gen.Kernel.Skeleton
import proofs.«115056_j45526653337868_1_alg».proof.Proof.Gen.Kernel.Launch
import proofs.«115056_j45526653337868_1_alg».proof.Proof.Gen.Kernel.Points
import proofs.«115056_j45526653337868_1_alg».proof.Proof.Gen.Kernel.Frame
import proofs.«115056_j45526653337868_1_alg».proof.Proof.Gen.KernelIdeal
import proofs.«115056_j45526653337868_1_alg».proof.Proof.Gen.KernelIdeal.Skeleton
import proofs.«115056_j45526653337868_1_alg».proof.Proof.Gen.KernelIdeal.Launch
import proofs.«115056_j45526653337868_1_alg».proof.Proof.Gen.KernelIdeal.Points
import proofs.«115056_j45526653337868_1_alg».proof.Proof.Gen.KernelIdeal.Frame
import proofs.«115056_j45526653337868_1_alg».proof.Proof.Gen.ReferenceIdeal
import proofs.«115056_j45526653337868_1_alg».proof.Proof.Gen.ReferenceIdeal.Run
import proofs.«115056_j45526653337868_1_alg».proof.Proof.Gen.ReferenceIdeal.Read
import proofs.«115056_j45526653337868_1_alg».proof.Proof.Gen.Pre_finite_inputs
import proofs.«115056_j45526653337868_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section Kernel

open Cert.KernelIdeal Cert.KernelIdeal.Gen Cert.KernelIdeal.ArrayValue Cert.KernelIdeal.HostValue

/-- The kernel program's run, read: the result is the node means of the edges' targets and the reference's messages,
    and every argument array ends as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v29)
        = nodeMean (targets m c) (Cert.ReferenceIdeal.Read.val_main_v29 (F := Ideal)
            (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).2 main_v29 (Pipeline.mem_restRefs_of main_v29 (by decide) (by decide))).trans
        ((tail_eq m c).trans (by rw [final m c, found_messages m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Kernel

/-- The reference's result, as its generated run names it, is the node means of the same targets and its own
    messages: the run's term is those two functions composed. -/
theorem reference_result (x0 : (⟨Cert.ReferenceIdeal.S50000x32, .f32⟩ : BufTy).Contents (Elt Ideal))
    (x1 : (⟨Cert.ReferenceIdeal.S2x1600000, .i32⟩ : BufTy).Contents (Elt Ideal))
    (x2 : (⟨Cert.ReferenceIdeal.S1600000x32, .f32⟩ : BufTy).Contents (Elt Ideal))
    (x3 : (⟨Cert.ReferenceIdeal.S64x64, .f32⟩ : BufTy).Contents (Elt Ideal))
    (x4 : (⟨Cert.ReferenceIdeal.S64, .f32⟩ : BufTy).Contents (Elt Ideal))
    (x5 : (⟨Cert.ReferenceIdeal.S64x128, .f32⟩ : BufTy).Contents (Elt Ideal))
    (x6 : (⟨Cert.ReferenceIdeal.S128, .f32⟩ : BufTy).Contents (Elt Ideal))
    (x7 : (⟨Cert.ReferenceIdeal.S128x64, .f32⟩ : BufTy).Contents (Elt Ideal))
    (x8 : (⟨Cert.ReferenceIdeal.S64, .f32⟩ : BufTy).Contents (Elt Ideal))
    (x9 : (⟨Cert.ReferenceIdeal.S64x32, .f32⟩ : BufTy).Contents (Elt Ideal))
    (x10 : (⟨Cert.ReferenceIdeal.S32, .f32⟩ : BufTy).Contents (Elt Ideal)) :
    Cert.ReferenceIdeal.Read.val_main_v41 (F := Ideal) x0 x1 x2 x3 x4 x5 x6 x7 x8 x9 x10
      = Cert.KernelIdeal.HostValue.nodeMean (Cert.ReferenceIdeal.Read.val_main_v1 (F := Ideal) x1)
          (Cert.ReferenceIdeal.Read.val_main_v29 (F := Ideal) x0 x1 x2 x3 x4 x5 x6 x7 x8 x9 x10) := rfl

/-- At the extended reals both programs end with the node means of the same targets and the same messages: the kernel
    program's region leaves the reference's messages, and the lines around it are the reference's own. -/
theorem algebraic : Cert.algebraic_KernelIdeal_ReferenceIdeal := by
  intro m ρ m' ρ' _ hagree
  refine ⟨fun c => Cert.KernelIdeal.HostValue.nodeMean (Cert.KernelIdeal.HostValue.targets m c)
      (Cert.ReferenceIdeal.Read.val_main_v29 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))),
    kernel_run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10⟩ := hagree c
  refine (Cert.ReferenceIdeal.Read.val_main_v41_eq _ _ _ _ _ _ _ _ _ _ _).trans ((reference_result _ _ _ _ _ _ _ _ _ _ _).trans ?_)
  rw [g0, g1, g2, g3, g4, g5, g6, g7, g8, g9, g10]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
